-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v34) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64x64 .f32) (main_arg8 : FVec F S64x64 .f32) (main_arg9 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : FVec F S50000x64 .f32) (main_arg2 : IVec S2x800000 32) (main_arg3 : FVec F S800000 .f32) (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S1x1 : Shape := ⟨2, ![1, 1]⟩
abbrev S64 : Shape := ⟨1, ![64]⟩
abbrev S64x1 : Shape := ⟨2, ![64, 1]⟩
abbrev S1 : Shape := ⟨1, ![1]⟩
abbrev S5000x64 : Shape := ⟨2, ![5000, 64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩

abbrev nBuf : Space → Nat
  | .hbm => 54
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x800000, .i32⟩
  | .hbm, ⟨3, _⟩ => ⟨S800000, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S1x1, .f32⟩
  | .hbm, ⟨13, _⟩ => ⟨S50000x64, .f32⟩
  | .hbm, ⟨14, _⟩ => ⟨S50000x64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S800000x1, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S50000x64, .f32⟩
  | .hbm, ⟨33, _⟩ => ⟨S800000x1, .i32⟩
  | .hbm, ⟨34, _⟩ => ⟨S50000x64, .f32⟩
  | .hbm, ⟨35, _⟩ => ⟨S800000, .f32⟩
  | .hbm, ⟨36, _⟩ => ⟨S800000x1, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S50000x64, .f32⟩
  | .hbm, ⟨53, _⟩ => ⟨S_, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S1x1, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v1_0 : Ref sig .tc := ⟨.hbm, 13, rfl⟩
abbrev main_v1_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_1 : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  inb_S64x64_S64x64_0_0 : ∀ a, (![0, 0] : Fin 2 → Nat) a + S64x64.size a ≤ S64x64.size a
  h_S64x64 : 0 < S64x64.numel
  reduces_S64x64_S64 : S64x64.Reduces [1] S64
  shapeCasts_S64_S64x1 : S64.ShapeCasts S64x1
  reduces_S64x1_S1 : S64x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S64x64_S64x64 : S64x64.ShapeCasts S64x64
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  shapeCasts_S1x1_S_ : S1x1.ShapeCasts S_
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S64x64.size a
  hwx0_0 : ∀ i : grid0.Coords, EltTy.bits .f32 = 32 ∨ (Rect.block (s := S64x64) S64x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg4) S64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S64x64.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S64x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x1.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v32) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x64.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x800000, .i32⟩
  | .hbm, ⟨3, _⟩ => ⟨S800000, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S50000x64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S800000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x64, .f32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S_, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S_, .f32⟩
  | .hbm, ⟨62, _⟩ => ⟨S50000x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S800000, .f32⟩
  | .hbm, ⟨67, _⟩ => ⟨S50000x64, .f32⟩
  | .hbm, ⟨68, _⟩ => ⟨S1x800000, .i32⟩
  | .hbm, ⟨69, _⟩ => ⟨S800000, .i32⟩
  | .hbm, ⟨70, _⟩ => ⟨S1x800000, .i32⟩
  | .hbm, ⟨71, _⟩ => ⟨S800000, .i32⟩
  | .hbm, ⟨72, _⟩ => ⟨S800000x1, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S800000x64, .f32⟩
  | .hbm, ⟨83, _⟩ => ⟨S800000x64, .f32⟩
  | .hbm, ⟨84, _⟩ => ⟨S_, .f32⟩
  | .hbm, ⟨85, _⟩ => ⟨S50000x64, .f32⟩
  | .hbm, ⟨86, _⟩ => ⟨S800000x1, .i32⟩
  | .hbm, ⟨87, _⟩ => ⟨S50000x64, .f32⟩
  | .hbm, ⟨88, _⟩ => ⟨S_, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S_, .f32⟩
  | .hbm, ⟨93, _⟩ => ⟨S64x64, .f32⟩
  | .hbm, ⟨94, _⟩ => ⟨S64x64, .f32⟩
  | .hbm, ⟨95, _⟩ => ⟨S64x64, .f32⟩
  | .hbm, ⟨96, _⟩ => ⟨S_, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S_, .f32⟩
  | .hbm, ⟨101, _⟩ => ⟨S64x64, .f32⟩
  | .hbm, ⟨102, _⟩ => ⟨S64x64, .f32⟩
  | .hbm, ⟨103, _⟩ => ⟨S64x64, .f32⟩
  | .hbm, ⟨104, _⟩ => ⟨S_, .f32⟩
  | .hbm, ⟨105, _⟩ => ⟨S_, .f32⟩
  | .hbm, ⟨106, _⟩ => ⟨S64x64, .f32⟩
  | .hbm, ⟨107, _⟩ => ⟨S64x64, .f32⟩
  | .hbm, ⟨108, _⟩ => ⟨S_, .f32⟩
  | .hbm, ⟨109, _⟩ => ⟨S64x64, .f32⟩
  | .hbm, ⟨110, _⟩ => ⟨S64x64, .f32⟩
  | .hbm, ⟨111, _⟩ => ⟨S_, .f32⟩
  | .hbm, ⟨112, _⟩ => ⟨S64x64, .f32⟩
  | .hbm, ⟨113, _⟩ => ⟨S64x64, .f32⟩
  | .hbm, ⟨114, _⟩ => ⟨S_, .f32⟩
  | .hbm, ⟨115, _⟩ => ⟨S_, .f32⟩
  | .hbm, ⟨116, _⟩ => ⟨S50000x64, .f32⟩
  | .hbm, ⟨117, _⟩ => ⟨S_, .f32⟩
  | .hbm, ⟨118, _⟩ => ⟨S50000x64, .f32⟩
  | .hbm, ⟨119, _⟩ => ⟨S50000x64, .f32⟩
  | .hbm, ⟨120, _⟩ => ⟨S50000x64, .f32⟩
  | .hbm, ⟨121, _⟩ => ⟨S_, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_cst_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S64x64 : S_.BroadcastsInDim S64x64 (![] : Fin 0 → Fin S64x64.rank)
  reducesTo_S64x64_S_d0_1 : S64x64.ReducesTo [0, 1] S_
  h_S_ : 0 < S_.numel
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Region0.lean ====
/-
  The first pallas_call, read as values. Its grid has one point and every window's block is its whole array: the six
  64×64 parameter arrays come in whole, and the body stores three whole outputs — μ₁ + ε₁·exp σ₁, μ₂ + ε₂·exp σ₂, and the
  1×1 total of the two KL sums. So each output array ends holding the body's stored value of the six input arrays as
  the region found them. Stated for any float interpretation and for any contents of the buffers at entry.
-/
import proofs.«142542_j46308337386025_1_alg».proof.Proof.Gen.KernelIdeal.Frame
import Idealize.ShloMosaic.Lib.Pipeline.Value

set_option maxRecDepth 16384

noncomputable section

namespace Cert.KernelIdeal.Region0

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- At the grid's one point every window sits at block index (0, 0). -/
theorem idx_facts : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-! ## Each input block is its whole array -/

theorem in0 (c : Dev nD) (t : Fin cfg0.N) : iblk0 V c 0 t = V c main_arg4 := by
  obtain ⟨⟨e0, e1⟩, -⟩ := idx_facts t
  funext j
  show V c main_arg4 (((cfg0.win 0).blk t).view.emb j) = V c main_arg4 j
  refine congrArg _ (funext fun a => Fin.ext ?_)
  match a with
  | ⟨0, _⟩ => show win0_0.index t (0 : Fin 2) * 64 + 1 * (j 0).val = (j 0).val; omega
  | ⟨1, _⟩ => show win0_0.index t (1 : Fin 2) * 64 + 1 * (j 1).val = (j 1).val; omega

theorem in1 (c : Dev nD) (t : Fin cfg0.N) : iblk0 V c 1 t = V c main_arg5 := by
  obtain ⟨-, ⟨e0, e1⟩, -⟩ := idx_facts t
  funext j
  show V c main_arg5 (((cfg0.win 1).blk t).view.emb j) = V c main_arg5 j
  refine congrArg _ (funext fun a => Fin.ext ?_)
  match a with
  | ⟨0, _⟩ => show win0_1.index t (0 : Fin 2) * 64 + 1 * (j 0).val = (j 0).val; omega
  | ⟨1, _⟩ => show win0_1.index t (1 : Fin 2) * 64 + 1 * (j 1).val = (j 1).val; omega

theorem in2 (c : Dev nD) (t : Fin cfg0.N) : iblk0 V c 2 t = V c main_arg6 := by
  obtain ⟨-, -, ⟨e0, e1⟩, -⟩ := idx_facts t
  funext j
  show V c main_arg6 (((cfg0.win 2).blk t).view.emb j) = V c main_arg6 j
  refine congrArg _ (funext fun a => Fin.ext ?_)
  match a with
  | ⟨0, _⟩ => show win0_2.index t (0 : Fin 2) * 64 + 1 * (j 0).val = (j 0).val; omega
  | ⟨1, _⟩ => show win0_2.index t (1 : Fin 2) * 64 + 1 * (j 1).val = (j 1).val; omega

theorem in3 (c : Dev nD) (t : Fin cfg0.N) : iblk0 V c 3 t = V c main_arg7 := by
  obtain ⟨-, -, -, ⟨e0, e1⟩, -⟩ := idx_facts t
  funext j
  show V c main_arg7 (((cfg0.win 3).blk t).view.emb j) = V c main_arg7 j
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 64 + 1 * (j 1).val = (j 1).val; omega

theorem in4 (c : Dev nD) (t : Fin cfg0.N) : iblk0 V c 4 t = V c main_arg8 := by
  obtain ⟨-, -, -, -, ⟨e0, e1⟩, -⟩ := idx_facts t
  funext j
  show V c main_arg8 (((cfg0.win 4).blk t).view.emb j) = V c main_arg8 j
  refine congrArg _ (funext fun a => Fin.ext ?_)
  match a with
  | ⟨0, _⟩ => show win0_4.index t (0 : Fin 2) * 64 + 1 * (j 0).val = (j 0).val; omega
  | ⟨1, _⟩ => show win0_4.index t (1 : Fin 2) * 64 + 1 * (j 1).val = (j 1).val; omega

theorem in5 (c : Dev nD) (t : Fin cfg0.N) : iblk0 V c 5 t = V c main_arg9 := by
  obtain ⟨-, -, -, -, -, ⟨e0, e1⟩, -⟩ := idx_facts t
  funext j
  show V c main_arg9 (((cfg0.win 5).blk t).view.emb j) = V c main_arg9 j
  refine congrArg _ (funext fun a => Fin.ext ?_)
  match a with
  | ⟨0, _⟩ => show win0_5.index t (0 : Fin 2) * 64 + 1 * (j 0).val = (j 0).val; omega
  | ⟨1, _⟩ => show win0_5.index t (1 : Fin 2) * 64 + 1 * (j 1).val = (j 1).val; omega

/-! ## The first weight output -/

/-- What the point writes back to the first weight output is the whole stored value, read through the whole-array block. -/
theorem flushed6 (c : Dev nD) (t : Fin cfg0.N) :
    (dat0 V c).flushed 6 t = ((cfg0.win 6).blk t).view.read (Elt F) (k0_pay2 (V c main_arg4) (V c main_arg5) (V c main_arg6)) := by
  show (cfg0.win 6).cut (grid0.coords t) ((dat0 V c).after 6 t) = _
  rw [after0_6]
  unfold out0_6
  rw [View.canon_unit_zero zero_off]
  simp only [View.ld_unit_zero (S := S64x64) zero_off]
  rw [in0 V c t, in1 V c t, in2 V c t]
  obtain ⟨-, -, -, -, -, -, ⟨e0, e1⟩, -⟩ := idx_facts t
  funext j
  show k0_pay2 (V c main_arg4) (V c main_arg5) (V c main_arg6) j
    = k0_pay2 (V c main_arg4) (V c main_arg5) (V c main_arg6) (((cfg0.win 6).blk t).view.emb j)
  refine congrArg _ (funext fun a => Fin.ext ?_)
  match a with
  | ⟨0, _⟩ => show (j 0).val = win0_6.index t (0 : Fin 2) * 64 + 1 * (j 0).val; omega
  | ⟨1, _⟩ => show (j 1).val = win0_6.index t (1 : Fin 2) * 64 + 1 * (j 1).val; omega

theorem mem_blk6 (t : Fin cfg0.N) (i : S64x64.Idx) :
    i ∈ ((cfg0.win 6).blk t).view.set ↔ ∀ a : Fin 2, win0_6.index t a * S64x64.size a ≤ (i a).val ∧ (i a).val < win0_6.index t a * S64x64.size a + S64x64.size a := by
  show i ∈ ((View.whole main_v0_0).slice (win0_6.rect t)).set ↔ _
  rw [View.set_slice_whole, Rect.mem_set_unit]
  exact Iff.rfl

theorem cover6 (i : S64x64.Idx) : ∃ t : Fin cfg0.N, (cfg0.win 6).flush t = true ∧ i ∈ ((cfg0.win 6).blk t).view.set := by
  have hi0 : (i 0).val < 64 := (i 0).isLt
  have hi1 : (i 1).val < 64 := (i 1).isLt
  obtain ⟨-, -, -, -, -, -, ⟨e0, e1⟩, -⟩ := idx_facts t0_0
  refine ⟨t0_0, flush0_6 t0_0, ?_⟩
  rw [mem_blk6]
  intro a
  match a with
  | ⟨0, _⟩ => show win0_6.index t0_0 (0 : Fin 2) * 64 ≤ (i 0).val ∧ (i 0).val < win0_6.index t0_0 (0 : Fin 2) * 64 + 64; omega
  | ⟨1, _⟩ => show win0_6.index t0_0 (1 : Fin 2) * 64 ≤ (i 1).val ∧ (i 1).val < win0_6.index t0_0 (1 : Fin 2) * 64 + 64; omega

/-- The first weight array after the region: μ₁ + ε₁·exp σ₁ of the parameter arrays as the region found them. -/
theorem arr_w1 (c : Dev nD) : (dat0 V c).arrAt 6 cfg0.N = k0_pay2 (V c main_arg4) (V c main_arg5) (V c main_arg6) :=
  (dat0 V c).arrAt_eq_of_cover 6 (k0_pay2 (V c main_arg4) (V c main_arg5) (V c main_arg6)) (fun t _ => flushed6 V c t) cover6

/-! ## The second weight output -/

theorem flushed7 (c : Dev nD) (t : Fin cfg0.N) :
    (dat0 V c).flushed 7 t = ((cfg0.win 7).blk t).view.read (Elt F) (k0_pay3 (V c main_arg7) (V c main_arg8) (V c main_arg9)) := by
  show (cfg0.win 7).cut (grid0.coords t) ((dat0 V c).after 7 t) = _
  rw [after0_7]
  unfold out0_7
  rw [View.canon_unit_zero zero_off]
  simp only [View.ld_unit_zero (S := S64x64) zero_off]
  rw [in3 V c t, in4 V c t, in5 V c t]
  obtain ⟨-, -, -, -, -, -, -, ⟨e0, e1⟩, -⟩ := idx_facts t
  funext j
  show k0_pay3 (V c main_arg7) (V c main_arg8) (V c main_arg9) j
    = k0_pay3 (V c main_arg7) (V c main_arg8) (V c main_arg9) (((cfg0.win 7).blk t).view.emb j)
  refine congrArg _ (funext fun a => Fin.ext ?_)
  match a with
  | ⟨0, _⟩ => show (j 0).val = win0_7.index t (0 : Fin 2) * 64 + 1 * (j 0).val; omega
  | ⟨1, _⟩ => show (j 1).val = win0_7.index t (1 : Fin 2) * 64 + 1 * (j 1).val; omega

theorem mem_blk7 (t : Fin cfg0.N) (i : S64x64.Idx) :
    i ∈ ((cfg0.win 7).blk t).view.set ↔ ∀ a : Fin 2, win0_7.index t a * S64x64.size a ≤ (i a).val ∧ (i a).val < win0_7.index t a * S64x64.size a + S64x64.size a := by
  show i ∈ ((View.whole main_v0_1).slice (win0_7.rect t)).set ↔ _
  rw [View.set_slice_whole, Rect.mem_set_unit]
  exact Iff.rfl

theorem cover7 (i : S64x64.Idx) : ∃ t : Fin cfg0.N, (cfg0.win 7).flush t = true ∧ i ∈ ((cfg0.win 7).blk t).view.set := by
  have hi0 : (i 0).val < 64 := (i 0).isLt
  have hi1 : (i 1).val < 64 := (i 1).isLt
  obtain ⟨-, -, -, -, -, -, -, ⟨e0, e1⟩, -⟩ := idx_facts t0_0
  refine ⟨t0_0, flush0_7 t0_0, ?_⟩
  rw [mem_blk7]
  intro a
  match a with
  | ⟨0, _⟩ => show win0_7.index t0_0 (0 : Fin 2) * 64 ≤ (i 0).val ∧ (i 0).val < win0_7.index t0_0 (0 : Fin 2) * 64 + 64; omega
  | ⟨1, _⟩ => show win0_7.index t0_0 (1 : Fin 2) * 64 ≤ (i 1).val ∧ (i 1).val < win0_7.index t0_0 (1 : Fin 2) * 64 + 64; omega

/-- The second weight array after the region: μ₂ + ε₂·exp σ₂ of the parameter arrays as the region found them. -/
theorem arr_w2 (c : Dev nD) : (dat0 V c).arrAt 7 cfg0.N = k0_pay3 (V c main_arg7) (V c main_arg8) (V c main_arg9) :=
  (dat0 V c).arrAt_eq_of_cover 7 (k0_pay3 (V c main_arg7) (V c main_arg8) (V c main_arg9)) (fun t _ => flushed7 V c t) cover7

/-! ## The KL output -/

/-- The body's 1×1 stored value, of the four parameter arrays it depends on. -/
abbrev klOf (mu1 ls1 mu2 ls2 : Vec F S64x64 .f32) : Vec F S1x1 .f32 :=
  k0_pay1 mu2 ls2 (k0_pay4 mu1 ls1) (k0_pay5 (F := F))

theorem flushed8 (c : Dev nD) (t : Fin cfg0.N) :
    (dat0 V c).flushed 8 t = ((cfg0.win 8).blk t).view.read (Elt F) (klOf (V c main_arg4) (V c main_arg5) (V c main_arg7) (V c main_arg8)) := by
  show (cfg0.win 8).cut (grid0.coords t) ((dat0 V c).after 8 t) = _
  rw [after0_8]
  unfold out0_8
  rw [View.canon_unit_zero zero_off]
  simp only [View.ld_unit_zero (S := S64x64) zero_off]
  rw [in0 V c t, in1 V c t, in3 V c t, in4 V c t]
  obtain ⟨-, -, -, -, -, -, -, -, ⟨e0, e1⟩⟩ := idx_facts t
  funext j
  show klOf (V c main_arg4) (V c main_arg5) (V c main_arg7) (V c main_arg8) j
    = klOf (V c main_arg4) (V c main_arg5) (V c main_arg7) (V c main_arg8) (((cfg0.win 8).blk t).view.emb j)
  refine congrArg _ (funext fun a => Fin.ext ?_)
  match a with
  | ⟨0, _⟩ => show (j 0).val = win0_8.index t (0 : Fin 2) * 1 + 1 * (j 0).val; omega
  | ⟨1, _⟩ => show (j 1).val = win0_8.index t (1 : Fin 2) * 1 + 1 * (j 1).val; omega

theorem mem_blk8 (t : Fin cfg0.N) (i : S1x1.Idx) :
    i ∈ ((cfg0.win 8).blk t).view.set ↔ ∀ a : Fin 2, win0_8.index t a * S1x1.size a ≤ (i a).val ∧ (i a).val < win0_8.index t a * S1x1.size a + S1x1.size a := by
  show i ∈ ((View.whole main_v0_2).slice (win0_8.rect t)).set ↔ _
  rw [View.set_slice_whole, Rect.mem_set_unit]
  exact Iff.rfl

theorem cover8 (i : S1x1.Idx) : ∃ t : Fin cfg0.N, (cfg0.win 8).flush t = true ∧ i ∈ ((cfg0.win 8).blk t).view.set := by
  have hi0 : (i 0).val < 1 := (i 0).isLt
  have hi1 : (i 1).val < 1 := (i 1).isLt
  obtain ⟨-, -, -, -, -, -, -, -, ⟨e0, e1⟩⟩ := idx_facts t0_0
  refine ⟨t0_0, flush0_8 t0_0, ?_⟩
  rw [mem_blk8]
  intro a
  match a with
  | ⟨0, _⟩ => show win0_8.index t0_0 (0 : Fin 2) * 1 ≤ (i 0).val ∧ (i 0).val < win0_8.index t0_0 (0 : Fin 2) * 1 + 1; omega
  | ⟨1, _⟩ => show win0_8.index t0_0 (1 : Fin 2) * 1 ≤ (i 1).val ∧ (i 1).val < win0_8.index t0_0 (1 : Fin 2) * 1 + 1; omega

/-- The 1×1 KL array after the region: the body's total of the four parameter arrays as the region found them. -/
theorem arr_kl (c : Dev nD) : (dat0 V c).arrAt 8 cfg0.N = klOf (V c main_arg4) (V c main_arg5) (V c main_arg7) (V c main_arg8) :=
  (dat0 V c).arrAt_eq_of_cover 8 (klOf (V c main_arg4) (V c main_arg5) (V c main_arg7) (V c main_arg8)) (fun t _ => flushed8 V c t) cover8

end Cert.KernelIdeal.Region0

end
-- ==== Proof.Spec.lean ====
/-
  The one whole-array function both programs' matrix products are compared through: for a 50000×64 array X and a
  64×64 array W, entry (n, j) of X·W is the sum over k of X(n, k) · W(k, j), on the extended reals.
-/
import Idealize.ShloMosaic.PureOps.Ideal
import Idealize.ShloMosaic.Lib.ValueIdx

noncomputable section

namespace Cert.Spec

open Idealize.ShloMosaic

/-- The node-by-channel shape. -/
abbrev SN : Shape := ⟨2, ![50000, 64]⟩
/-- The weight shape. -/
abbrev SW : Shape := ⟨2, ![64, 64]⟩

/-- X·W, entry by entry: row n of X against column j of W. -/
def rowsTimes (X : FVec Ideal SN .f32) (W : FVec Ideal SW .f32) : FVec Ideal SN .f32 :=
  fun i => ∑ k : Fin 64, X (ValueIdx.ix2 ⟨(i 0).val, (i 0).isLt⟩ k) * W (ValueIdx.ix2 k ⟨(i 1).val, (i 1).isLt⟩)

theorem rowsTimes_apply (X : FVec Ideal SN .f32) (W : FVec Ideal SW .f32) (i : SN.Idx) :
    rowsTimes X W i = ∑ k : Fin 64, X (ValueIdx.ix2 ⟨(i 0).val, (i 0).isLt⟩ k) * W (ValueIdx.ix2 k ⟨(i 1).val, (i 1).isLt⟩) := rfl

end Cert.Spec

end
-- ==== Proof.Region1.lean ====
/-
  The second pallas_call, read as values at the ideal interpretation. Its grid has ten points; point t loads rows
  5000·t … 5000·t + 4999 of the two 50000×64 inputs and the two whole 64×64 weight arrays, and writes the same rows of
  the two outputs: the row block times the weights (the changes of float format are the identity on the extended
  reals, the accumulator starts at zero), for the second output with the block squared entry by entry first. The ten
  row blocks tile each output, so each output array ends holding the whole product X·W entry by entry.
-/
import proofs.«142542_j46308337386025_1_alg».proof.Proof.Gen.KernelIdeal.Frame
import proofs.«142542_j46308337386025_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Idealize.ShloMosaic Idealize.ShloMosaic.TcCoe Idealize.SL.Sem Cert.KernelIdeal Cert.KernelIdeal.Gen
open Idealize.ShloMosaic.Pipeline (Dat)

variable (V : (c : Dev nD) → (b : Ref sig .tc) → Buf (Elt Ideal) ((c : Thread nD τ).loc b))

theorem zero_off : (![0, 0] : Fin 2 → Nat) = fun _ => 0 := funext fun a => by fin_cases a <;> rfl

/-! ## The body's product at an entry -/

/-- The left operand's index at output index i and contraction index q: the output's row on axis 0 … -/
theorem lhs_dot_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contraction coordinate on axis 1. -/
theorem lhs_dot_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's index: the contraction coordinate on axis 0 … -/
theorem rhs_dot_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column on axis 1. -/
theorem rhs_dot_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The matrix unit's product into a zero accumulator, at entry (p, q): row p of the left operand against column q of
    the right one, the contraction index renamed to its one coordinate. -/
theorem dot_apply (a : FVec Ideal S5000x64 .bf16) (b : FVec Ideal S64x64 .bf16) (p : Fin 5000) (q : Fin 64) :
    FloatOps.matmul dot_S5000x64_S64x64_S5000x64_1_0_0_1_n_n none a b (constant S5000x64 .f32 0x00000000#32) (ValueIdx.ix2 p q)
      = ∑ k : Fin 64, a (ValueIdx.ix2 p k) * b (ValueIdx.ix2 k q) := by
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ValueIdx.ix2 p q) ((ValueIdx.contrEquiv1 dot_S5000x64_S64x64_S5000x64_1_0_0_1_n_n 64 rfl rfl).symm k) = ValueIdx.ix2 p k := funext fun a => Fin.ext (by
    match a with
    | ⟨0, _⟩ => exact lhs_dot_0 _ _
    | ⟨1, _⟩ => exact (lhs_dot_1 _ _).trans hk)
  have er : dot_S5000x64_S64x64_S5000x64_1_0_0_1_n_n.rhsIdx (ValueIdx.ix2 p q) ((ValueIdx.contrEquiv1 dot_S5000x64_S64x64_S5000x64_1_0_0_1_n_n 64 rfl rfl).symm k) = ValueIdx.ix2 k q := funext fun a => Fin.ext (by
    match a with
    | ⟨0, _⟩ => exact (rhs_dot_0 _ _).trans hk
    | ⟨1, _⟩ => exact rhs_dot_1 _ _)
  rw [el, er]

/-- The first output's stored value at entry (p, q) of the block: row p of the loaded row block against column q of
    the loaded weights (the format changes are the identity, the cast is to the same shape). -/
theorem pay1_apply (x : Vec Ideal S5000x64 .f32) (w : Vec Ideal S64x64 .f32) (p : Fin 5000) (q : Fin 64) :
    k1_pay1 x w (ValueIdx.ix2 p q) = ∑ k : Fin 64, x (ValueIdx.ix2 p k) * w (ValueIdx.ix2 k q) := by
  unfold k1_pay1
  simp only [shapeCast_self, matmul]
  exact dot_apply _ _ p q

/-- The second output's stored value at entry (p, q): the same product with the row block squared entry by entry. -/
theorem pay2_apply (x : Vec Ideal S5000x64 .f32) (w : Vec Ideal S64x64 .f32) (p : Fin 5000) (q : Fin 64) :
    k1_pay2 x w (ValueIdx.ix2 p q) = ∑ k : Fin 64, (x (ValueIdx.ix2 p k) * x (ValueIdx.ix2 p k)) * w (ValueIdx.ix2 k q) := by
  unfold k1_pay2
  simp only [shapeCast_self, matmul]
  exact dot_apply _ _ p q

/-! ## The index maps -/

/-- The row-block windows (both inputs, both outputs) move together down the rows, block index t on axis 0 and 0 on
    axis 1; the two weight windows stay at block (0, 0): their block is the whole array. -/
theorem idx_facts : ∀ t : Fin cfg1.N,
    (win1_0.index t (0 : Fin 2) = win1_4.index t (0 : Fin 2) ∧ win1_0.index t (1 : Fin 2) = 0)
    ∧ (win1_1.index t (0 : Fin 2) = win1_5.index t (0 : Fin 2) ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) ≤ 9 ∧ win1_4.index t (1 : Fin 2) = 0)
    ∧ (win1_5.index t (0 : Fin 2) ≤ 9 ∧ win1_5.index t (1 : Fin 2) = 0) :=
  (by decide +kernel : ∀ t : Fin grid1.N, _)

/-- Every one of the ten row blocks of the first output is some point's … -/
theorem idx_onto_4 : ∀ q0 : Fin 10, ∃ t : Fin cfg1.N, win1_4.index t = ![q0.val, 0] :=
  (by decide +kernel : ∀ q0 : Fin 10, ∃ t : Fin grid1.N, win1_4.index t = ![q0.val, 0])
/-- … and so is every one of the second output's. -/
theorem idx_onto_5 : ∀ q0 : Fin 10, ∃ t : Fin cfg1.N, win1_5.index t = ![q0.val, 0] :=
  (by decide +kernel : ∀ q0 : Fin 10, ∃ t : Fin grid1.N, win1_5.index t = ![q0.val, 0])

/-! ## What a point writes back -/

/-- What point t writes back to the first output is block t of the whole product. -/
theorem flushed_eq_4 (c : Dev nD) (t : Fin cfg1.N) :
    (dat1 V c).flushed 4 t
      = ((cfg1.win 4).blk t).view.read (Elt Ideal) (Cert.Spec.rowsTimes (V c main_arg0) (V c main_v0_0)) := by
  show (cfg1.win 4).cut (grid1.coords t) ((dat1 V c).after 4 t) = _
  rw [after1_4]
  unfold out1_4
  rw [View.canon_unit_zero zero_off]
  simp only [View.ld_unit_zero (S := S5000x64) zero_off, View.ld_unit_zero (S := S64x64) zero_off]
  obtain ⟨⟨a0, a1⟩, ⟨b0, b1⟩, ⟨w0, w1⟩, ⟨u0, u1⟩, ⟨-, o1⟩, ⟨-, r1⟩⟩ := idx_facts t
  funext j
  show k1_pay1 (iblk1 V c 0 t) (iblk1 V c 2 t) j
    = Cert.Spec.rowsTimes (V c main_arg0) (V c main_v0_0) (((cfg1.win 4).blk t).view.emb j)
  obtain ⟨p, q, rfl⟩ : ∃ (p : Fin 5000) (q : Fin 64), j = ValueIdx.ix2 p q := ⟨j 0, j 1, ValueIdx.eq_ix2 j⟩
  refine (pay1_apply _ _ p q).trans ?_
  rw [Cert.Spec.rowsTimes_apply]
  refine Finset.sum_congr rfl fun k _ => ?_
  -- the row block's entry (p, k) is the input's entry (5000·t + p, k) …
  have e0 : ((cfg1.win 0).blk t).view.emb (ValueIdx.ix2 p k)
      = (ValueIdx.ix2 (n0 := 50000) (n1 := 64)
          ⟨((((cfg1.win 4).blk t).view.emb (ValueIdx.ix2 p q)) 0).val, ((((cfg1.win 4).blk t).view.emb (ValueIdx.ix2 p q)) 0).isLt⟩ k : S50000x64.Idx) := by
    funext a; apply Fin.ext
    match a with
    | ⟨0, _⟩ => show win1_0.index t (0 : Fin 2) * 5000 + 1 * p.val = win1_4.index t (0 : Fin 2) * 5000 + 1 * p.val; omega
    | ⟨1, _⟩ => show win1_0.index t (1 : Fin 2) * 64 + 1 * k.val = k.val; omega
  -- … and the weight block's entry (k, q) is the weights' entry (k, q)
  have e2 : ((cfg1.win 2).blk t).view.emb (ValueIdx.ix2 k q)
      = (ValueIdx.ix2 (n0 := 64) (n1 := 64) k
          ⟨((((cfg1.win 4).blk t).view.emb (ValueIdx.ix2 p q)) 1).val, ((((cfg1.win 4).blk t).view.emb (ValueIdx.ix2 p q)) 1).isLt⟩ : S64x64.Idx) := by
    funext a; apply Fin.ext
    match a with
    | ⟨0, _⟩ => show win1_2.index t (0 : Fin 2) * 64 + 1 * k.val = k.val; omega
    | ⟨1, _⟩ => show win1_2.index t (1 : Fin 2) * 64 + 1 * q.val = win1_4.index t (1 : Fin 2) * 64 + 1 * q.val; omega
  have hx : iblk1 V c 0 t (ValueIdx.ix2 p k) = V c main_arg0 (((cfg1.win 0).blk t).view.emb (ValueIdx.ix2 p k)) := rfl
  have hw : iblk1 V c 2 t (ValueIdx.ix2 k q) = V c main_v0_0 (((cfg1.win 2).blk t).view.emb (ValueIdx.ix2 k q)) := rfl
  rw [hx, hw, e0, e2]

/-- What point t writes back to the second output is block t of the whole product of the squared input with the weights. -/
theorem flushed_eq_5 (c : Dev nD) (t : Fin cfg1.N) :
    (dat1 V c).flushed 5 t
      = ((cfg1.win 5).blk t).view.read (Elt Ideal) (Cert.Spec.rowsTimes (mulf (V c main_arg1) (V c main_arg1)) (V c main_v0_1)) := by
  show (cfg1.win 5).cut (grid1.coords t) ((dat1 V c).after 5 t) = _
  rw [after1_5]
  unfold out1_5
  rw [View.canon_unit_zero zero_off]
  simp only [View.ld_unit_zero (S := S5000x64) zero_off, View.ld_unit_zero (S := S64x64) zero_off]
  obtain ⟨⟨a0, a1⟩, ⟨b0, b1⟩, ⟨w0, w1⟩, ⟨u0, u1⟩, ⟨-, o1⟩, ⟨-, r1⟩⟩ := idx_facts t
  funext j
  show k1_pay2 (iblk1 V c 1 t) (iblk1 V c 3 t) j
    = Cert.Spec.rowsTimes (mulf (V c main_arg1) (V c main_arg1)) (V c main_v0_1) (((cfg1.win 5).blk t).view.emb j)
  obtain ⟨p, q, rfl⟩ : ∃ (p : Fin 5000) (q : Fin 64), j = ValueIdx.ix2 p q := ⟨j 0, j 1, ValueIdx.eq_ix2 j⟩
  refine (pay2_apply _ _ p q).trans ?_
  rw [Cert.Spec.rowsTimes_apply]
  refine Finset.sum_congr rfl fun k _ => ?_
  -- the row block's entry (p, k) is the input's entry (5000·t + p, k) …
  have e0 : ((cfg1.win 1).blk t).view.emb (ValueIdx.ix2 p k)
      = (ValueIdx.ix2 (n0 := 50000) (n1 := 64)
          ⟨((((cfg1.win 5).blk t).view.emb (ValueIdx.ix2 p q)) 0).val, ((((cfg1.win 5).blk t).view.emb (ValueIdx.ix2 p q)) 0).isLt⟩ k : S50000x64.Idx) := by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 64 + 1 * k.val = k.val; omega
  -- … and the weight block's entry (k, q) is the weights' entry (k, q)
  have e2 : ((cfg1.win 3).blk t).view.emb (ValueIdx.ix2 k q)
      = (ValueIdx.ix2 (n0 := 64) (n1 := 64) k
          ⟨((((cfg1.win 5).blk t).view.emb (ValueIdx.ix2 p q)) 1).val, ((((cfg1.win 5).blk t).view.emb (ValueIdx.ix2 p q)) 1).isLt⟩ : S64x64.Idx) := by
    funext a; apply Fin.ext
    match a with
    | ⟨0, _⟩ => show win1_3.index t (0 : Fin 2) * 64 + 1 * k.val = k.val; omega
    | ⟨1, _⟩ => show win1_3.index t (1 : Fin 2) * 64 + 1 * q.val = win1_5.index t (1 : Fin 2) * 64 + 1 * q.val; omega
  have hx : iblk1 V c 1 t (ValueIdx.ix2 p k) = V c main_arg1 (((cfg1.win 1).blk t).view.emb (ValueIdx.ix2 p k)) := rfl
  have hw : iblk1 V c 3 t (ValueIdx.ix2 k q) = V c main_v0_1 (((cfg1.win 3).blk t).view.emb (ValueIdx.ix2 k q)) := rfl
  rw [hx, hw, e0, e2]
  rfl

/-! ## The ten row blocks tile each output -/

/-- An index of the first output is in point t's block iff each coordinate is in the block's range on its axis. -/
theorem mem_blk_4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v1_0).slice (win1_4.rect t)).set ↔ _
  rw [View.set_slice_whole, Rect.mem_set_unit]
  exact Iff.rfl

/-- Row r of the first output lies in the block of the point whose block index is r / 5000. -/
theorem cover_4 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto_4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk_4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- An index of the second output is in point t's block iff each coordinate is in the block's range on its axis. -/
theorem mem_blk_5 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v1_1).slice (win1_5.rect t)).set ↔ _
  rw [View.set_slice_whole, Rect.mem_set_unit]
  exact Iff.rfl

/-- Row r of the second output lies in the block of the point whose block index is r / 5000. -/
theorem cover_5 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto_5 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-! ## The output arrays after the region -/

/-- The first output array after the region: (first input) · (first weights), as the region found them. -/
theorem arr_mean (c : Dev nD) :
    (dat1 V c).arrAt 4 cfg1.N = Cert.Spec.rowsTimes (V c main_arg0) (V c main_v0_0) :=
  (dat1 V c).arrAt_eq_of_cover 4 (Cert.Spec.rowsTimes (V c main_arg0) (V c main_v0_0)) (fun t _ => flushed_eq_4 V c t) (cover_4)

/-- The second output array after the region: (second input, squared entry by entry) · (second weights). -/
theorem arr_var (c : Dev nD) :
    (dat1 V c).arrAt 5 cfg1.N = Cert.Spec.rowsTimes (mulf (V c main_arg1) (V c main_arg1)) (V c main_v0_1) :=
  (dat1 V c).arrAt_eq_of_cover 5 (Cert.Spec.rowsTimes (mulf (V c main_arg1) (V c main_arg1)) (V c main_v0_1)) (fun t _ => flushed_eq_5 V c t) (cover_5)

end Cert.KernelIdeal.Region1

end
-- ==== Proof.Region2.lean ====
/-
  The third pallas_call, read as a value. Its grid has ten points; point t loads rows 5000·t … 5000·t + 4999 of the
  50000×64 input, applies x ↦ sqrt (exp x + ε) entry by entry (ε the float literal 0x358637BD), and writes the same
  rows of the output. The ten row blocks tile the array, so the output array ends holding that map of the whole
  input array, entry by entry. Stated for any float interpretation and for any contents of the buffers at entry.
-/
import proofs.«142542_j46308337386025_1_alg».proof.Proof.Gen.KernelIdeal.Frame
import Idealize.ShloMosaic.Lib.Pipeline.Value

set_option maxRecDepth 16384

noncomputable section

namespace Cert.KernelIdeal.Region2

open Idealize.ShloMosaic Idealize.ShloMosaic.TcCoe Idealize.SL.Sem Cert.KernelIdeal Cert.KernelIdeal.Gen
open Idealize.ShloMosaic.Pipeline (Dat)

variable {F : FTy → Type} [FloatOps F]
variable (V : (c : Dev nD) → (b : Ref sig .tc) → Buf (Elt F) ((c : Thread nD τ).loc b))

theorem zero_off : (![0, 0] : Fin 2 → Nat) = fun _ => 0 := funext fun a => by fin_cases a <;> rfl

/-- x ↦ sqrt (exp x + ε) at every entry of a 50000×64 array. -/
def stdOf (x : Vec F S50000x64 .f32) : Vec F S50000x64 .f32 :=
  fun i => FloatOps.sqrt (FloatOps.addf (FloatOps.exp (x i)) (Scalar.ofBits .f32 0x358637BD#32))

/-- The body's stored value at an entry of the block is the same map of the loaded block's entry. -/
theorem pay_apply (x : Vec F S5000x64 .f32) (j : S5000x64.Idx) :
    k2_pay1 x j = FloatOps.sqrt (FloatOps.addf (FloatOps.exp (x j)) (Scalar.ofBits .f32 0x358637BD#32)) := by
  unfold k2_pay1
  simp only [shapeCast_self]
  rfl

/-- Input and output window move together down the rows: block index t on axis 0, block index 0 on axis 1. -/
theorem idx_facts : ∀ t : Fin cfg2.N, win2_0.index t (0 : Fin 2) = win2_1.index t (0 : Fin 2)
    ∧ win2_0.index t (1 : Fin 2) = win2_1.index t (1 : Fin 2)
    ∧ win2_1.index t (0 : Fin 2) ≤ 9 ∧ win2_1.index t (1 : Fin 2) = 0 :=
  (by decide +kernel : ∀ t : Fin grid2.N, _)

/-- Every one of the ten row blocks is some point's. -/
theorem idx_onto : ∀ q0 : Fin 10, ∃ t : Fin cfg2.N, win2_1.index t = ![q0.val, 0] :=
  (by decide +kernel : ∀ q0 : Fin 10, ∃ t : Fin grid2.N, win2_1.index t = ![q0.val, 0])

/-- What point t writes back is block t of the map of the whole input array. -/
theorem flushed_eq (c : Dev nD) (t : Fin cfg2.N) :
    (dat2 V c).flushed 1 t = ((cfg2.win 1).blk t).view.read (Elt F) (stdOf (V c main_v32)) := by
  show (cfg2.win 1).cut (grid2.coords t) ((dat2 V c).after 1 t) = _
  rw [after2_1]
  unfold out2_1
  rw [View.canon_unit_zero zero_off]
  simp only [View.ld_unit_zero (S := S5000x64) zero_off]
  obtain ⟨e0, e1, -, -⟩ := idx_facts t
  funext j
  show k2_pay1 (iblk2 V c 0 t) j = stdOf (V c main_v32) (((cfg2.win 1).blk t).view.emb j)
  refine (pay_apply _ _).trans ?_
  show FloatOps.sqrt (FloatOps.addf (FloatOps.exp (V c main_v32 (((cfg2.win 0).blk t).view.emb j))) (Scalar.ofBits .f32 0x358637BD#32))
    = FloatOps.sqrt (FloatOps.addf (FloatOps.exp (V c main_v32 (((cfg2.win 1).blk t).view.emb j))) (Scalar.ofBits .f32 0x358637BD#32))
  have h0 : ((cfg2.win 0).blk t).view.emb j = ((cfg2.win 1).blk t).view.emb j := by
    funext a; apply Fin.ext
    match a with
    | ⟨0, _⟩ => show win2_0.index t (0 : Fin 2) * 5000 + 1 * (j 0).val = win2_1.index t (0 : Fin 2) * 5000 + 1 * (j 0).val; omega
    | ⟨1, _⟩ => show win2_0.index t (1 : Fin 2) * 64 + 1 * (j 1).val = win2_1.index t (1 : Fin 2) * 64 + 1 * (j 1).val; omega
  rw [h0]

/-- An index of the array is in point t's block iff each coordinate is in the block's range on its axis. -/
theorem mem_blk (t : Fin cfg2.N) (i : S50000x64.Idx) :
    i ∈ ((cfg2.win 1).blk t).view.set ↔ ∀ a : Fin 2, win2_1.index t a * S5000x64.size a ≤ (i a).val ∧ (i a).val < win2_1.index t a * S5000x64.size a + S5000x64.size a := by
  show i ∈ ((View.whole main_v33).slice (win2_1.rect t)).set ↔ _
  rw [View.set_slice_whole, Rect.mem_set_unit]
  exact Iff.rfl

/-- Row r lies in the block of the point whose block index is r / 5000. -/
theorem cover (i : S50000x64.Idx) :
    ∃ t : Fin cfg2.N, (cfg2.win 1).flush t = true ∧ i ∈ ((cfg2.win 1).blk t).view.set := by
  have hi0 : (i 0).val < 50000 := (i 0).isLt
  have hi1 : (i 1).val < 64 := (i 1).isLt
  obtain ⟨t, ht⟩ := idx_onto ⟨(i 0).val / 5000, by omega⟩
  have q0 : win2_1.index t (0 : Fin 2) = (i 0).val / 5000 := congrFun ht 0
  have q1 : win2_1.index t (1 : Fin 2) = 0 := congrFun ht 1
  refine ⟨t, flush2_1 t, ?_⟩
  rw [mem_blk]
  intro a
  match a with
  | ⟨0, _⟩ => show win2_1.index t (0 : Fin 2) * 5000 ≤ (i 0).val ∧ (i 0).val < win2_1.index t (0 : Fin 2) * 5000 + 5000; omega
  | ⟨1, _⟩ => show win2_1.index t (1 : Fin 2) * 64 ≤ (i 1).val ∧ (i 1).val < win2_1.index t (1 : Fin 2) * 64 + 64; omega

/-- The output array after the region: the map of the input array as the region found it. -/
theorem arr_out (c : Dev nD) : (dat2 V c).arrAt 1 cfg2.N = stdOf (V c main_v32) :=
  (dat2 V c).arrAt_eq_of_cover 1 (stdOf (V c main_v32)) (fun t _ => flushed_eq V c t) (cover)

end Cert.KernelIdeal.Region2

end
-- ==== Proof.Propagate.lean ====
/-
  The message-passing step both programs share, as one function: from the 2×E edge list take the source row (wrapped
  once if negative) and the destination row, gather the source rows of the N×64 array `support`, scale row e by the
  edge weight w(e), and add the scaled rows into an all-zero N×64 array at the destination rows. Both programs apply
  exactly these host operations; the certificate only ever compares what goes INTO this function.
-/
import proofs.«142542_j46308337386025_1_alg».proof.Proof.Gen.ReferenceIdeal

noncomputable section

namespace Cert.Propagate

open Idealize.ShloMosaic Cert.ReferenceIdeal Cert.ReferenceIdeal.Gen

variable {F : FTy → Type} [FloatOps F]

/-- Gather by source, scale by edge weight, scatter-add by destination. -/
def propagate (ei : (⟨S2x800000, .i32⟩ : BufTy).Contents (Elt F)) (w : (⟨S800000, .f32⟩ : BufTy).Contents (Elt F))
    (support : (⟨S50000x64, .f32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 (shapeCast _ (extractStridedSlice S1x800000 ![1, 0] ei slices_S2x800000_S1x800000_1_0) shapeCasts_S1x800000_S800000)) (mulf (broadcastInDim S800000x64 ![0, 1] bcast_S800000x1_S800000x64_0_1 (broadcastInDim S800000x1 ![0] bcast_S800000_S800000x1_0 w)) (Host.gather gather_S50000x64_S800000x1_S800000x64_1_0_n_n_0_1_164 support (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000)))))

end Cert.Propagate

end
-- ==== Proof.Chain.lean ====
/-
  The kernel program's three results as functions of the launch memory, at the ideal interpretation: the contents
  of each buffer at each boundary between the program's segments, followed backwards from the return to the launch.
  Region 0 leaves the two weight arrays μ + ε·exp σ and the 1×1 KL total; region 1 leaves the two products X·W; the
  host stretch between regions 1 and 2 is the shared message-passing step applied to each product (with the edge
  weights, resp. their squares); region 2 applies x ↦ sqrt (exp x + ε) to the second of these; the last host
  operation casts the 1×1 KL total to a scalar. No argument array and no earlier result is written in between.
-/
import proofs.«142542_j46308337386025_1_alg».proof.Proof.Gen.KernelIdeal.Frame
import proofs.«142542_j46308337386025_1_alg».proof.Proof.Region0
import proofs.«142542_j46308337386025_1_alg».proof.Proof.Region1
import proofs.«142542_j46308337386025_1_alg».proof.Proof.Region2
import proofs.«142542_j46308337386025_1_alg».proof.Proof.Propagate
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## After region 0 -/

theorem w1_arg0 (c : Dev nD) : W1 m ρ c (Proc.devRef .tc main_arg0) = m ((c : Thread nD τ).loc main_arg0) := W1_of_ne m ρ c main_arg0 (by decide)
theorem w1_arg1 (c : Dev nD) : W1 m ρ c (Proc.devRef .tc main_arg1) = m ((c : Thread nD τ).loc main_arg1) := W1_of_ne m ρ c main_arg1 (by decide)
theorem w1_arg2 (c : Dev nD) : W1 m ρ c (Proc.devRef .tc main_arg2) = m ((c : Thread nD τ).loc main_arg2) := W1_of_ne m ρ c main_arg2 (by decide)
theorem w1_arg3 (c : Dev nD) : W1 m ρ c (Proc.devRef .tc main_arg3) = m ((c : Thread nD τ).loc main_arg3) := W1_of_ne m ρ c main_arg3 (by decide)

theorem w1_w1 (c : Dev nD) : W1 m ρ c (Proc.devRef .tc main_v0_0)
    = k0_pay2 (m ((c : Thread nD τ).loc main_arg4)) (m ((c : Thread nD τ).loc main_arg5)) (m ((c : Thread nD τ).loc main_arg6)) :=
  (W1_arr m ρ c 6).trans (Region0.arr_w1 (V0 m ρ) c)

theorem w1_w2 (c : Dev nD) : W1 m ρ c (Proc.devRef .tc main_v0_1)
    = k0_pay3 (m ((c : Thread nD τ).loc main_arg7)) (m ((c : Thread nD τ).loc main_arg8)) (m ((c : Thread nD τ).loc main_arg9)) :=
  (W1_arr m ρ c 7).trans (Region0.arr_w2 (V0 m ρ) c)

theorem w1_kl (c : Dev nD) : W1 m ρ c (Proc.devRef .tc main_v0_2)
    = Region0.klOf (m ((c : Thread nD τ).loc main_arg4)) (m ((c : Thread nD τ).loc main_arg5)) (m ((c : Thread nD τ).loc main_arg7)) (m ((c : Thread nD τ).loc main_arg8)) :=
  (W1_arr m ρ c 8).trans (Region0.arr_kl (V0 m ρ) c)

/-! ## After region 1 -/

theorem w2_arg2 (c : Dev nD) : W2 m ρ c (Proc.devRef .tc main_arg2) = m ((c : Thread nD τ).loc main_arg2) :=
  (W2_of_ne m ρ c main_arg2 (by decide)).trans (w1_arg2 m ρ c)
theorem w2_arg3 (c : Dev nD) : W2 m ρ c (Proc.devRef .tc main_arg3) = m ((c : Thread nD τ).loc main_arg3) :=
  (W2_of_ne m ρ c main_arg3 (by decide)).trans (w1_arg3 m ρ c)
theorem w2_kl (c : Dev nD) : W2 m ρ c (Proc.devRef .tc main_v0_2)
    = Region0.klOf (m ((c : Thread nD τ).loc main_arg4)) (m ((c : Thread nD τ).loc main_arg5)) (m ((c : Thread nD τ).loc main_arg7)) (m ((c : Thread nD τ).loc main_arg8)) :=
  (W2_of_ne m ρ c main_v0_2 (by decide)).trans (w1_kl m ρ c)

theorem w2_mean (c : Dev nD) : W2 m ρ c (Proc.devRef .tc main_v1_0)
    = Cert.Spec.rowsTimes (m ((c : Thread nD τ).loc main_arg0)) (k0_pay2 (m ((c : Thread nD τ).loc main_arg4)) (m ((c : Thread nD τ).loc main_arg5)) (m ((c : Thread nD τ).loc main_arg6))) := by
  refine (W2_arr m ρ c 4).trans ((Region1.arr_mean (V1 m ρ) c).trans ?_)
  show Cert.Spec.rowsTimes (W1 m ρ c (Proc.devRef .tc main_arg0)) (W1 m ρ c (Proc.devRef .tc main_v0_0)) = _
  rw [w1_arg0, w1_w1]

theorem w2_var (c : Dev nD) : W2 m ρ c (Proc.devRef .tc main_v1_1)
    = Cert.Spec.rowsTimes (mulf (m ((c : Thread nD τ).loc main_arg1)) (m ((c : Thread nD τ).loc main_arg1))) (k0_pay3 (m ((c : Thread nD τ).loc main_arg7)) (m ((c : Thread nD τ).loc main_arg8)) (m ((c : Thread nD τ).loc main_arg9))) := by
  refine (W2_arr m ρ c 5).trans ((Region1.arr_var (V1 m ρ) c).trans ?_)
  show Cert.Spec.rowsTimes (mulf (W1 m ρ c (Proc.devRef .tc main_arg1)) (W1 m ρ c (Proc.devRef .tc main_arg1))) (W1 m ρ c (Proc.devRef .tc main_v0_1)) = _
  rw [w1_arg1, w1_w2]

/-! ## After the host stretch between regions 1 and 2: the shared message-passing step, for any contents before it -/

theorem host_mean (Wc : Valuation τ sig (Elt Ideal)) :
    StableHlo.after hostOps2 Wc (Proc.devRef .tc main_v18)
      = Cert.Propagate.propagate (Wc (Proc.devRef .tc main_arg2)) (Wc (Proc.devRef .tc main_arg3)) (Wc (Proc.devRef .tc main_v1_0)) := by
  dsimp only [hostOps2]
  after_results_simp <;> rfl

theorem host_var (Wc : Valuation τ sig (Elt Ideal)) :
    StableHlo.after hostOps2 Wc (Proc.devRef .tc main_v32)
      = Cert.Propagate.propagate (Wc (Proc.devRef .tc main_arg2)) (mulf (F := Ideal) (s := S800000) (φ := .f32) (Wc (Proc.devRef .tc main_arg3)) (Wc (Proc.devRef .tc main_arg3))) (Wc (Proc.devRef .tc main_v1_1)) := by
  dsimp only [hostOps2]
  after_results_simp <;> rfl

theorem host_kl (Wc : Valuation τ sig (Elt Ideal)) :
    StableHlo.after hostOps2 Wc (Proc.devRef .tc main_v0_2) = Wc (Proc.devRef .tc main_v0_2) := by
  dsimp only [hostOps2]
  after_results_simp <;> rfl

/-! ## The last host operation, for any contents before it -/

theorem last_kl (Wc : Valuation τ sig (Elt Ideal)) :
    StableHlo.after hostOps3 Wc (Proc.devRef .tc main_v34) = shapeCast S_ (Wc (Proc.devRef .tc main_v0_2)) shapeCasts_S1x1_S_ := by
  dsimp only [hostOps3]
  after_results_simp <;> rfl

theorem last_mean (Wc : Valuation τ sig (Elt Ideal)) :
    StableHlo.after hostOps3 Wc (Proc.devRef .tc main_v18) = Wc (Proc.devRef .tc main_v18) := by
  dsimp only [hostOps3]
  after_results_simp <;> rfl

theorem last_std (Wc : Valuation τ sig (Elt Ideal)) :
    StableHlo.after hostOps3 Wc (Proc.devRef .tc main_v33) = Wc (Proc.devRef .tc main_v33) := by
  dsimp only [hostOps3]
  after_results_simp <;> rfl

/-! ## The three results at the return -/

/-- The first result: message passing, with the edge weights, of (first input) · (μ₁ + ε₁·exp σ₁). -/
theorem res_mean (c : Dev nD) : W5 m ρ c (Proc.devRef .tc main_v18)
    = Cert.Propagate.propagate (m ((c : Thread nD τ).loc main_arg2)) (m ((c : Thread nD τ).loc main_arg3))
        (Cert.Spec.rowsTimes (m ((c : Thread nD τ).loc main_arg0)) (k0_pay2 (m ((c : Thread nD τ).loc main_arg4)) (m ((c : Thread nD τ).loc main_arg5)) (m ((c : Thread nD τ).loc main_arg6)))) := by
  show StableHlo.after hostOps3 (W4 m ρ c) (Proc.devRef .tc main_v18) = _
  rw [last_mean, W4_of_ne m ρ c main_v18 (by decide)]
  show StableHlo.after hostOps2 (W2 m ρ c) (Proc.devRef .tc main_v18) = _
  rw [host_mean, w2_arg2, w2_arg3, w2_mean]

/-- The second result: sqrt (exp · + ε) of message passing, with the squared edge weights, of (second input)² · (μ₂ + ε₂·exp σ₂). -/
theorem res_std (c : Dev nD) : W5 m ρ c (Proc.devRef .tc main_v33)
    = Region2.stdOf (Cert.Propagate.propagate (m ((c : Thread nD τ).loc main_arg2)) (mulf (F := Ideal) (s := S800000) (φ := .f32) (m ((c : Thread nD τ).loc main_arg3)) (m ((c : Thread nD τ).loc main_arg3)))
        (Cert.Spec.rowsTimes (mulf (m ((c : Thread nD τ).loc main_arg1)) (m ((c : Thread nD τ).loc main_arg1))) (k0_pay3 (m ((c : Thread nD τ).loc main_arg7)) (m ((c : Thread nD τ).loc main_arg8)) (m ((c : Thread nD τ).loc main_arg9))))) := by
  show StableHlo.after hostOps3 (W4 m ρ c) (Proc.devRef .tc main_v33) = _
  rw [last_std]
  refine (W4_arr m ρ c 1).trans ((Region2.arr_out (V3 m ρ) c).trans ?_)
  show Region2.stdOf (StableHlo.after hostOps2 (W2 m ρ c) (Proc.devRef .tc main_v32)) = _
  rw [host_var, w2_arg2, w2_arg3, w2_var]

/-- The third result: the 1×1 KL total as a scalar. -/
theorem res_kl (c : Dev nD) : W5 m ρ c (Proc.devRef .tc main_v34)
    = shapeCast S_ (Region0.klOf (m ((c : Thread nD τ).loc main_arg4)) (m ((c : Thread nD τ).loc main_arg5)) (m ((c : Thread nD τ).loc main_arg7)) (m ((c : Thread nD τ).loc main_arg8))) shapeCasts_S1x1_S_ := by
  show StableHlo.after hostOps3 (W4 m ρ c) (Proc.devRef .tc main_v34) = _
  rw [last_kl, W4_of_ne m ρ c main_v0_2 (by decide)]
  show shapeCast S_ (StableHlo.after hostOps2 (W2 m ρ c) (Proc.devRef .tc main_v0_2)) shapeCasts_S1x1_S_ = _
  rw [host_kl, w2_kl]

end Cert.KernelIdeal.Chain

end
-- ==== Proof.KlValue.lean ====
/-
  The KL term. The kernel sums ½·(e^{2σ}·1 + μ²·1 − 2σ − 0 − 1) over each 64×64 parameter pair, rows first and then the
  column of row sums, and adds the two totals; the reference sums ½·(e^{2σ}/1 + μ²/1 − 2σ − log 1 − 1) over all entries
  at once and adds the two totals. On the extended reals x·1 = x/1 = x, log 1 = 0, x − 0 = x, and a sum over a
  64×64 index is the sum of its row sums, so the two scalars are equal.
-/
import proofs.«142542_j46308337386025_1_alg».proof.Proof.Gen.KernelIdeal.Skeleton
import proofs.«142542_j46308337386025_1_alg».proof.Proof.Gen.ReferenceIdeal
import Idealize.ShloMosaic.Lib.Pipeline.Value
import Idealize.ShloMosaic.Lib.ValueIdx
import Idealize.ShloMosaic.PureOps.Ideal.Laws

noncomputable section

namespace Cert.KlValue

open Idealize.ShloMosaic

/-- The reference's KL summand array of one parameter pair (μ, σ), as its host operations compute it. -/
def refTerm (mu ls : FVec Ideal Cert.ReferenceIdeal.S64x64 .f32) : FVec Ideal Cert.ReferenceIdeal.S64x64 .f32 :=
  open Cert.ReferenceIdeal Cert.ReferenceIdeal.Gen in
  mulf (broadcastInDim S64x64 ![] bcast_S_S64x64 (constant S_ .f32 0x3F000000#32)) (subf (subf (subf (addf (Host.divf (Host.exp (mulf (broadcastInDim S64x64 ![] bcast_S_S64x64 (constant S_ .f32 0x40000000#32)) ls)) (broadcastInDim S64x64 ![] bcast_S_S64x64 (constant S_ .f32 0x3F800000#32))) (Host.divf (mulf mu mu) (broadcastInDim S64x64 ![] bcast_S_S64x64 (constant S_ .f32 0x3F800000#32)))) (mulf (broadcastInDim S64x64 ![] bcast_S_S64x64 (constant S_ .f32 0x40000000#32)) ls)) (broadcastInDim S64x64 ![] bcast_S_S64x64 (Host.log (constant S_ .f32 0x3F800000#32)))) (broadcastInDim S64x64 ![] bcast_S_S64x64 (constant S_ .f32 0x3F800000#32)))

/-- The reference's scalar result: the two whole-array sums, added. -/
def refTotal (mu1 ls1 mu2 ls2 : FVec Ideal Cert.ReferenceIdeal.S64x64 .f32) : FVec Ideal Cert.ReferenceIdeal.S_ .f32 :=
  open Cert.ReferenceIdeal Cert.ReferenceIdeal.Gen in
  addf (Host.reduceAdd (refTerm mu1 ls1) (constant S_ .f32 0x00000000#32) reducesTo_S64x64_S_d0_1 h_S_)
    (Host.reduceAdd (refTerm mu2 ls2) (constant S_ .f32 0x00000000#32) reducesTo_S64x64_S_d0_1 h_S_)

open Idealize.ShloMosaic.ValueIdx
open scoped BigOperators

/-! ## The literals and the three scalar laws -/

/-- The word `0x3F800000` denotes the extended real one. -/
theorem ofBits_one_f32 : Ideal.ofBits .f32 0x3F800000#32 = 1 := by
  simp [Ideal.ofBits, Ideal.ieee]
  rw [← EReal.coe_mul]
  norm_num

/-- A quotient by one is the dividend. -/
theorem div_one' (x : EReal) : Ideal.div x 1 = x := by
  unfold Ideal.div
  rw [if_neg one_ne_zero, inv_one, mul_one]

/-- The logarithm of one is zero. -/
theorem log_one' : Ideal.log 1 = 0 := by
  have h : (1 : EReal) = ((1 : ℝ) : EReal) := rfl
  rw [h, Ideal.log_coe, if_neg (by norm_num), Real.log_one]
  rfl

/-- One summand: the kernel's entry is the reference's entry, over any extended reals. -/
theorem entry_eq (h two m l : EReal) :
    h * ((((Ideal.exp (two * l) * 1 + m * m * 1) - two * l) - 0) - 1)
      = h * ((((Ideal.div (Ideal.exp (two * l)) 1 + Ideal.div (m * m) 1) - two * l) - Ideal.log 1) - 1) := by
  rw [div_one', div_one', log_one', mul_one, mul_one]

/-! ## The kernel's side: rows first, then the column of row sums -/

section KernelSide
open Cert.KernelIdeal Cert.KernelIdeal.Gen

variable {α : Type}

/-- Over row `a` of a 64×64 array, inserting the column coordinate `b` gives the entry `(a, b)`. -/
theorem lift_row (h : S64x64.Reduces [1] S64) (a b : Fin 64) : h.lift (ix1 a) b = ix2 a b := by
  funext c
  match c with
  | ⟨0, _⟩ => exact Fin.ext rfl
  | ⟨1, _⟩ => exact Fin.ext rfl

/-- Over the one column of a 64×1 array, inserting the row coordinate `a` gives the entry `(a, u)`. -/
theorem lift_col (h : S64x1.Reduces [0] S1) (u : Fin 1) (a : Fin 64) : h.lift (ix1 u) a = ix2 a u := by
  funext c
  match c with
  | ⟨0, _⟩ => exact Fin.ext rfl
  | ⟨1, _⟩ => exact Fin.ext rfl

/-- A lane sum of a 64×64 array, at row `a`: the sum of that row. -/
theorem rowSum_apply (x : FVec Ideal S64x64 .f32) (h : S64x64.Reduces [1] S64) (hφ : FKind.Formats .f32)
    (hacc : 0x00000000#32 = FKind.add.neutral .f32 hφ) (a : Fin 64) :
    multiReduction (F := Ideal) .add [1] S64 x 0x00000000#32 h hφ hacc (ix1 a) = ∑ b : Fin 64, x (ix2 a b) :=
  (Ideal.multiReduction_add_single x _ h hφ hacc (ix1 a)).trans
    (Finset.sum_congr rfl fun b _ => congrArg x (lift_row h a b))

/-- The sum along the rows of a 64×1 column: the sum of its 64 entries. -/
theorem colSum_apply (w : FVec Ideal S64x1 .f32) (h : S64x1.Reduces [0] S1) (hφ : FKind.Formats .f32)
    (hacc : 0x00000000#32 = FKind.add.neutral .f32 hφ) (u : Fin 1) :
    multiReduction (F := Ideal) .add [0] S1 w 0x00000000#32 h hφ hacc (ix1 u) = ∑ a : Fin 64, w (ix2 a u) :=
  (Ideal.multiReduction_add_single w _ h hφ hacc (ix1 u)).trans
    (Finset.sum_congr rfl fun a _ => congrArg w (lift_col h u a))

/-- 64 entries written as a 64×1 column hold entry `a` in row `a`. -/
theorem column_apply (r : S64.Idx → α) (c : S64.ShapeCasts S64x1) (a : Fin 64) (u : Fin 1) :
    shapeCast S64x1 r c (ix2 a u) = r (ix1 a) :=
  shapeCast_apply r c _ _ (by
    rw [Shape.rowMajor_val_one, Shape.rowMajor_val_two]
    show a.val = a.val * 1 + u.val
    omega)

/-- One entry written as a 1×1 array is that entry. -/
theorem unit_apply (v : S1.Idx → α) (c : S1.ShapeCasts S1x1) (j : S1x1.Idx) :
    shapeCast S1x1 v c j = v (ix1 0) :=
  shapeCast_apply v c _ _ (by
    have h0 := idx2_lt0 j
    have h1 := idx2_lt1 j
    rw [Shape.rowMajor_val_one, Shape.rowMajor_val_two]
    show (0 : Fin 1).val = (j 0).val * 1 + (j 1).val
    simp only [Fin.val_zero]
    omega)

/-- A 1×1 array read as a scalar is its one entry. -/
theorem scalar_apply (v : S1x1.Idx → α) (c : S1x1.ShapeCasts S_) (i : S_.Idx) :
    shapeCast S_ v c i = v (ix2 0 0) :=
  shapeCast_apply v c _ _ (by
    rw [Shape.rowMajor_val_two]
    exact (Shape.rowMajorPi_zero _ i).symm)

/-- The kernel's way to a total: row sums, written as a column, summed, written as a 1×1 array. -/
def rowsThenColumn (x : FVec Ideal S64x64 .f32) : FVec Ideal S1x1 .f32 :=
  shapeCast S1x1 (multiReduction .add [0] S1 (shapeCast S64x1 (multiReduction .add [1] S64 x 0x00000000#32 reduces_S64x64_S64 (.inl rfl) rfl) shapeCasts_S64_S64x1) 0x00000000#32 reduces_S64x1_S1 (.inl rfl) rfl) shapeCasts_S1_S1x1

/-- It is the double sum over rows and columns. -/
theorem rowsThenColumn_apply (x : FVec Ideal S64x64 .f32) (j : S1x1.Idx) :
    rowsThenColumn x j = ∑ a : Fin 64, ∑ b : Fin 64, x (ix2 a b) := by
  unfold rowsThenColumn
  refine (unit_apply _ _ j).trans ?_
  refine (colSum_apply _ _ _ _ 0).trans ?_
  refine Finset.sum_congr rfl fun a _ => ?_
  refine (column_apply _ _ a 0).trans ?_
  exact rowSum_apply x _ _ _ a

/-- The kernel's payload is the two totals, added; the second summand array is the first's function of `(μ₂, σ₂)`. -/
theorem pay1_eq (mu1 ls1 mu2 ls2 : Vec Ideal S64x64 .f32) :
    k0_pay1 (F := Ideal) mu2 ls2 (k0_pay4 mu1 ls1) k0_pay5
      = addf (rowsThenColumn (k0_pay4 mu1 ls1)) (rowsThenColumn (k0_pay4 mu2 ls2)) := rfl

end KernelSide

/-! ## The reference's side: both axes at once -/

section ReferenceSide
open Cert.ReferenceIdeal Cert.ReferenceIdeal.Gen

/-- The reference's sum over both axes into a scalar, from the initial value zero: the double sum over rows and columns. -/
theorem total_apply (y : FVec Ideal S64x64 .f32) (i : S_.Idx) :
    Host.reduceAdd (F := Ideal) y (constant S_ .f32 0x00000000#32) reducesTo_S64x64_S_d0_1 h_S_ i
      = ∑ a : Fin 64, ∑ b : Fin 64, y (ix2 a b) := by
  simp only [Host.reduceAdd, Ideal.hostReduceAdd_def]
  rw [Ideal.hostReduceAdd_total reducesTo_S64x64_S_d0_1 (fun b => b.elim0) y _ i, constant_apply,
    Ideal.ofBits_zero_f32, zero_add, sum_idx2]

end ReferenceSide

/-! ## Entry by entry, the kernel's summand array is the reference's -/

/-- The kernel's summand array of a pair `(μ, σ)` is the reference's: at each entry the two differ by `x·1` against
    `x/1` and by `0` against `log 1`. -/
theorem pay4_eq_refTerm (mu ls : FVec Ideal Cert.KernelIdeal.S64x64 .f32) :
    Cert.KernelIdeal.Gen.k0_pay4 (F := Ideal) mu ls = refTerm mu ls := by
  funext i
  show Ideal.ofBits .f32 0x3F000000#32 * ((((Ideal.exp (Ideal.ofBits .f32 0x40000000#32 * ls i) * Ideal.ofBits .f32 0x3F800000#32
        + mu i * mu i * Ideal.ofBits .f32 0x3F800000#32) - Ideal.ofBits .f32 0x40000000#32 * ls i)
        - Ideal.ofBits .f32 0x00000000#32) - Ideal.ofBits .f32 0x3F800000#32)
    = Ideal.ofBits .f32 0x3F000000#32 * ((((Ideal.div (Ideal.exp (Ideal.ofBits .f32 0x40000000#32 * ls i)) (Ideal.ofBits .f32 0x3F800000#32)
        + Ideal.div (mu i * mu i) (Ideal.ofBits .f32 0x3F800000#32)) - Ideal.ofBits .f32 0x40000000#32 * ls i)
        - Ideal.log (Ideal.ofBits .f32 0x3F800000#32)) - Ideal.ofBits .f32 0x3F800000#32)
  rw [ofBits_one_f32, Ideal.ofBits_zero_f32]
  exact entry_eq _ _ _ _

/-- The kernel's 1×1 result cast to a scalar is the reference's scalar. -/
theorem kernel_eq_ref (mu1 ls1 mu2 ls2 : Vec Ideal Cert.KernelIdeal.S64x64 .f32) :
    shapeCast Cert.KernelIdeal.S_ (Cert.KernelIdeal.Gen.k0_pay1 (F := Ideal) mu2 ls2 (Cert.KernelIdeal.Gen.k0_pay4 mu1 ls1) Cert.KernelIdeal.Gen.k0_pay5) Cert.KernelIdeal.Gen.shapeCasts_S1x1_S_
      = refTotal mu1 ls1 mu2 ls2 := by
  funext i
  refine (scalar_apply _ _ i).trans ?_
  unfold refTotal
  rw [pay1_eq, addf_apply, addf_apply, rowsThenColumn_apply, rowsThenColumn_apply, total_apply, total_apply,
    pay4_eq_refTerm, pay4_eq_refTerm]

end Cert.KlValue

end
-- ==== Proof.RefValue.lean ====
/-
  The reference program read as values and joined to the kernel's closed forms, at the ideal interpretation.
  Its two `dot_general`s are the whole products X·W entry by entry; the kernel's weight term μ + ε·exp σ and its
  closing map sqrt (exp x + ε) are the reference's host terms (on the extended reals the kernel's and the host's
  exp and sqrt are one function each); the message-passing step is the shared function; the scalar is the KL total.
-/
import proofs.«142542_j46308337386025_1_alg».proof.Defs
import proofs.«142542_j46308337386025_1_alg».proof.Proof.Gen.ReferenceIdeal.Run
import proofs.«142542_j46308337386025_1_alg».proof.Proof.Gen.ReferenceIdeal.Read
import proofs.«142542_j46308337386025_1_alg».proof.Proof.Gen.KernelIdeal.Skeleton
import proofs.«142542_j46308337386025_1_alg».proof.Proof.Spec
import proofs.«142542_j46308337386025_1_alg».proof.Proof.Propagate
import proofs.«142542_j46308337386025_1_alg».proof.Proof.Region0
import proofs.«142542_j46308337386025_1_alg».proof.Proof.Region2
import proofs.«142542_j46308337386025_1_alg».proof.Proof.KlValue

noncomputable section

namespace Cert.RefValue

open Idealize.ShloMosaic Cert.ReferenceIdeal Cert.ReferenceIdeal.Gen Cert.ReferenceIdeal.Read

/-- The reference's first product, entry by entry. -/
theorem dot_mean (x0 : (⟨S50000x64, .f32⟩ : BufTy).Contents (Elt Ideal)) (x4 x5 x6 : (⟨S64x64, .f32⟩ : BufTy).Contents (Elt Ideal)) :
    val_main_v3 (F := Ideal) x0 x4 x5 x6 = Cert.Spec.rowsTimes x0 (val_main_v2 (F := Ideal) x4 x5 x6) := by
  funext i
  rw [val_main_v3_apply, Cert.Spec.rowsTimes_apply]
  refine Finset.sum_congr rfl fun k _ => ?_
  have el : lidx_main_v3 i k = ValueIdx.ix2 ⟨(i 0).val, (i 0).isLt⟩ k :=
    funext fun a => by match a with | ⟨0, _⟩ => rfl | ⟨1, _⟩ => rfl
  have er : ridx_main_v3 i k = ValueIdx.ix2 k ⟨(i 1).val, (i 1).isLt⟩ :=
    funext fun a => by match a with | ⟨0, _⟩ => rfl | ⟨1, _⟩ => rfl
  rw [el, er]
  rfl

/-- The reference's second product, entry by entry. -/
theorem dot_var (x1 : (⟨S50000x64, .f32⟩ : BufTy).Contents (Elt Ideal)) (x7 x8 x9 : (⟨S64x64, .f32⟩ : BufTy).Contents (Elt Ideal)) :
    val_main_v46 (F := Ideal) x1 x7 x8 x9 = Cert.Spec.rowsTimes (val_main_v41 (F := Ideal) x1) (val_main_v44 (F := Ideal) x7 x8 x9) := by
  funext i
  rw [val_main_v46_apply, Cert.Spec.rowsTimes_apply]
  refine Finset.sum_congr rfl fun k _ => ?_
  have el : lidx_main_v46 i k = ValueIdx.ix2 ⟨(i 0).val, (i 0).isLt⟩ k :=
    funext fun a => by match a with | ⟨0, _⟩ => rfl | ⟨1, _⟩ => rfl
  have er : ridx_main_v46 i k = ValueIdx.ix2 k ⟨(i 1).val, (i 1).isLt⟩ :=
    funext fun a => by match a with | ⟨0, _⟩ => rfl | ⟨1, _⟩ => rfl
  rw [el, er]
  rfl

/-- The kernel's first weight term is the reference's: exp is one function on the extended reals. -/
theorem w1_eq (x4 x5 x6 : (⟨S64x64, .f32⟩ : BufTy).Contents (Elt Ideal)) :
    Cert.KernelIdeal.Gen.k0_pay2 (F := Ideal) x4 x5 x6 = val_main_v2 (F := Ideal) x4 x5 x6 := rfl

/-- The kernel's second weight term is the reference's. -/
theorem w2_eq (x7 x8 x9 : (⟨S64x64, .f32⟩ : BufTy).Contents (Elt Ideal)) :
    Cert.KernelIdeal.Gen.k0_pay3 (F := Ideal) x7 x8 x9 = val_main_v44 (F := Ideal) x7 x8 x9 := rfl

/-- The closing map: the host's sqrt (exp y + ε) is the kernel's, entry by entry, for any array y. -/
theorem closing_eq (y : (⟨S50000x64, .f32⟩ : BufTy).Contents (Elt Ideal)) :
    (Host.sqrt (F := Ideal) (addf (Host.exp y) (broadcastInDim S50000x64 ![] bcast_S_S50000x64 (constant S_ .f32 0x358637BD#32)))
        : (⟨S50000x64, .f32⟩ : BufTy).Contents (Elt Ideal))
      = Cert.KernelIdeal.Region2.stdOf (F := Ideal) y := by
  funext i
  rfl

/-- The first result: message passing of the first product. -/
theorem mean_eq (x0 : (⟨S50000x64, .f32⟩ : BufTy).Contents (Elt Ideal)) (x2 : (⟨S2x800000, .i32⟩ : BufTy).Contents (Elt Ideal))
    (x3 : (⟨S800000, .f32⟩ : BufTy).Contents (Elt Ideal)) (x4 x5 x6 : (⟨S64x64, .f32⟩ : BufTy).Contents (Elt Ideal)) :
    val_main_v20 (F := Ideal) x0 x2 x3 x4 x5 x6
      = Cert.Propagate.propagate x2 x3 (Cert.Spec.rowsTimes x0 (Cert.KernelIdeal.Gen.k0_pay2 (F := Ideal) x4 x5 x6)) := by
  rw [w1_eq, ← dot_mean]
  rfl

/-- The second result: the closing map of message passing (with squared edge weights) of the second product. -/
theorem std_eq (x1 : (⟨S50000x64, .f32⟩ : BufTy).Contents (Elt Ideal)) (x2 : (⟨S2x800000, .i32⟩ : BufTy).Contents (Elt Ideal))
    (x3 : (⟨S800000, .f32⟩ : BufTy).Contents (Elt Ideal)) (x7 x8 x9 : (⟨S64x64, .f32⟩ : BufTy).Contents (Elt Ideal)) :
    val_main_v87 (F := Ideal) x1 x2 x3 x7 x8 x9
      = Cert.KernelIdeal.Region2.stdOf (F := Ideal) (Cert.Propagate.propagate x2 (mulf (F := Ideal) (s := S800000) (φ := .f32) x3 x3)
          (Cert.Spec.rowsTimes (mulf x1 x1) (Cert.KernelIdeal.Gen.k0_pay3 (F := Ideal) x7 x8 x9))) := by
  have h : Cert.Spec.rowsTimes (mulf x1 x1) (Cert.KernelIdeal.Gen.k0_pay3 (F := Ideal) x7 x8 x9) = val_main_v46 (F := Ideal) x1 x7 x8 x9 :=
    (dot_var x1 x7 x8 x9).symm
  rw [h, ← closing_eq]
  rfl

/-- The third result: the KL total. -/
theorem kl_eq (x4 x5 x7 x8 : (⟨S64x64, .f32⟩ : BufTy).Contents (Elt Ideal)) :
    val_main_v88 (F := Ideal) x4 x5 x7 x8
      = shapeCast Cert.KernelIdeal.S_ (Cert.KernelIdeal.Region0.klOf (F := Ideal) x4 x5 x7 x8) Cert.KernelIdeal.Gen.shapeCasts_S1x1_S_ :=
  (Cert.KlValue.kernel_eq_ref x4 x5 x7 x8).symm

end Cert.RefValue

end
-- ==== Proof.lean ====
/-
  The kernel computes, on the TensorCore, the two weight arrays W₁ = μ₁ + ε₁·exp σ₁ and W₂ = μ₂ + ε₂·exp σ₂ with the KL
  total of the two parameter pairs (first pallas_call), the products mean·W₁ and std²·W₂ row block by row block
  (second pallas_call), then — in host operations — gathers the source rows of each product, scales them by the edge
  weights (resp. their squares) and adds them into the destination rows, and finally applies x ↦ sqrt (exp x + ε)
  to the second of these sums row block by row block (third pallas_call). The reference computes the same three
  results with host operations only. On the extended reals the two agree: a change of float format is the identity,
  a block-wise matrix product with a zero accumulator is the whole product, the kernel's and the host's exp and sqrt
  are one function each, x·1 = x/1 = x, log 1 = 0, x − 0 = x, and a sum over a 64×64 index is the sum of its row
  sums; the message-passing host operations are literally the same on both sides, so only what enters them is compared.
  The precondition (finite inputs) is not needed for any of these laws. The idealization rewrote nothing, so
  `preserves` is trivial; the kernel's frames are the generated ones, the reference's frame its generated run.
-/
import proofs.«142542_j46308337386025_1_alg».proof.Defs
import proofs.«142542_j46308337386025_1_alg».proof.Proof.Gen.Kernel
import proofs.«142542_j46308337386025_1_alg».proof.Proof.Gen.Kernel.Skeleton
import proofs.«142542_j46308337386025_1_alg».proof.Proof.Gen.Kernel.Launch
import proofs.«142542_j46308337386025_1_alg».proof.Proof.Gen.Kernel.Points
import proofs.«142542_j46308337386025_1_alg».proof.Proof.Gen.Kernel.Frame
import proofs.«142542_j46308337386025_1_alg».proof.Proof.Gen.KernelIdeal
import proofs.«142542_j46308337386025_1_alg».proof.Proof.Gen.KernelIdeal.Skeleton
import proofs.«142542_j46308337386025_1_alg».proof.Proof.Gen.KernelIdeal.Launch
import proofs.«142542_j46308337386025_1_alg».proof.Proof.Gen.KernelIdeal.Points
import proofs.«142542_j46308337386025_1_alg».proof.Proof.Gen.KernelIdeal.Frame
import proofs.«142542_j46308337386025_1_alg».proof.Proof.Gen.ReferenceIdeal
import proofs.«142542_j46308337386025_1_alg».proof.Proof.Gen.ReferenceIdeal.Run
import proofs.«142542_j46308337386025_1_alg».proof.Proof.Gen.ReferenceIdeal.Read
import proofs.«142542_j46308337386025_1_alg».proof.Proof.Gen.Pre_finite_inputs
import proofs.«142542_j46308337386025_1_alg».proof.Proof.KernelRun
import proofs.«142542_j46308337386025_1_alg».proof.Proof.Chain
import proofs.«142542_j46308337386025_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- Both programs end with the same three arrays: the kernel's closed forms of its launch memory (the run with its
    results named, then each boundary's contents followed back to the launch), which the reference's run reaches
    from a memory agreeing on the arguments. -/
theorem algebraic : Cert.algebraic_KernelIdeal_ReferenceIdeal := by
  intro m ρ m' ρ' _ hagree
  refine ⟨_, _, _,
    (θ_run Cert.KernelIdeal.defs _ _).mono (fun r h c =>
      ⟨(h c).1.trans (Cert.KernelIdeal.Chain.res_mean m ρ c),
       (h c).2.1.trans (Cert.KernelIdeal.Chain.res_std m ρ c),
       (h c).2.2.1.trans (Cert.KernelIdeal.Chain.res_kl m ρ c),
       (h c).2.2.2⟩) (Cert.KernelIdeal.RunValue.run_results (F := Ideal) m ρ), ?_⟩
  refine (θ_run Cert.ReferenceIdeal.defs _ _).mono (fun r h c => ?_) (Cert.ReferenceIdeal.Value.run (F := Ideal) m' ρ')
  obtain ⟨h1, h2, h3, hargs⟩ := h c
  obtain ⟨a0, a1, a2, a3, a4, a5, a6, a7, a8, a9⟩ := hagree c
  refine ⟨h1.trans ?_, h2.trans ?_, h3.trans ?_, hargs⟩
  · rw [a0, a2, a3, a4, a5, a6]
    exact (Cert.ReferenceIdeal.Read.val_main_v20_eq _ _ _ _ _ _).trans (Cert.RefValue.mean_eq _ _ _ _ _ _)
  · rw [a1, a2, a3, a7, a8, a9]
    exact (Cert.ReferenceIdeal.Read.val_main_v87_eq _ _ _ _ _ _).trans (Cert.RefValue.std_eq _ _ _ _ _ _)
  · rw [a4, a5, a7, a8]
    exact (Cert.ReferenceIdeal.Read.val_main_v88_eq _ _ _ _).trans (Cert.RefValue.kl_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
